-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S2x4 : Shape := ⟨2, ![2, 4]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S2x4 : S_.BroadcastsInDim S2x4 (![] : Fin 0 → Fin S2x4.rank)
  reducesTo_S2x4_S_d0_1 : S2x4.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x4 .f32) (main_arg9 : FVec F S2 .f32) (main_v33 : IVec S_ 1) : IVec S_ 1 :=
  let main_v34 : FVec F S2x4 .f32 := Host.absf main_arg8
  let main_cst_12 : FVec F S_ .f32 := constant S_ .f32 0x7F800000#32
  let main_v35 : FVec F S2x4 .f32 := broadcastInDim S2x4 ![] bcast_S_S2x4 main_cst_12
  let main_v36 : IVec S2x4 1 := cmpf .olt main_v34 main_v35
  let main_c_13 : IVec S_ 1 := constantI S_ 1 1#1
  let main_v37 : IVec S_ 1 := (fun x v => Host.reduce IntOp.andi x v reducesTo_S2x4_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S4x128 .f32) (main_arg6 : FVec F S4 .f32) (main_arg7 : FVec F S4x128 .f32) (main_arg8 : FVec F S2x4 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S4x128 .f32) (main_arg6 : FVec F S4 .f32) (main_arg7 : FVec F S4x128 .f32) (main_arg8 : FVec F S2x4 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S2x4 : Shape := ⟨2, ![2, 4]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S128x4 : Shape := ⟨2, ![128, 4]⟩
abbrev S4x2 : Shape := ⟨2, ![4, 2]⟩
abbrev S1x4 : Shape := ⟨2, ![1, 4]⟩
abbrev S1x2 : Shape := ⟨2, ![1, 2]⟩
abbrev S100000x2 : Shape := ⟨2, ![100000, 2]⟩
abbrev S5000x2 : Shape := ⟨2, ![5000, 2]⟩
abbrev S5000x4 : Shape := ⟨2, ![5000, 4]⟩

abbrev nBuf : Space → Nat
  | .hbm => 67
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S4x128, .f32⟩
  | .hbm, ⟨6, _⟩ => ⟨S4, .f32⟩
  | .hbm, ⟨7, _⟩ => ⟨S4x128, .f32⟩
  | .hbm, ⟨8, _⟩ => ⟨S2x4, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S128x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S128x4, .f32⟩
  | .hbm, ⟨62, _⟩ => ⟨S128x4, .f32⟩
  | .hbm, ⟨63, _⟩ => ⟨S4x2, .f32⟩
  | .hbm, ⟨64, _⟩ => ⟨S1x4, .f32⟩
  | .hbm, ⟨65, _⟩ => ⟨S1x2, .f32⟩
  | .hbm, ⟨66, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x4, .f32⟩
  | .local _ .vmem, ⟨14, _⟩ => ⟨S1x4, .f32⟩
  | .local _ .vmem, ⟨15, _⟩ => ⟨S128x4, .f32⟩
  | .local _ .vmem, ⟨16, _⟩ => ⟨S4x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S4x128_S128x4_1_0 : S4x128.Transposes [1, 0] S128x4
  transposes_S2x4_S4x2_1_0 : S2x4.Transposes [1, 0] S4x2
  shapeCasts_S4_S1x4 : S4.ShapeCasts S1x4
  shapeCasts_S2_S1x2 : S2.ShapeCasts S1x2
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S4x2_S4x2_0_0 : ∀ a, (![0, 0] : Fin 2 → Nat) a + S4x2.size a ≤ S4x2.size a
  h_S4x2 : 0 < S4x2.numel
  shapeCasts_S4x2_S4x2 : S4x2.ShapeCasts S4x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x4_S5000x4_1_0_0_1_n_n_wf : DotDims.WF S5000x128 S128x4 S5000x4 [1] [0] [0] [1] [] []
  dot_S5000x4_S4x2_S5000x2_1_0_0_1_n_n_wf : DotDims.WF S5000x4 S4x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4.size a ≤ S128x4.size a
  hwx1_2 : ∀ i : grid1.Coords, EltTy.bits .f32 = 32 ∨ (Rect.block (s := S128x4) S128x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x4.size a ≤ S128x4.size a
  hwx1_4 : ∀ i : grid1.Coords, EltTy.bits .f32 = 32 ∨ (Rect.block (s := S128x4) S128x4.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x2.size a ≤ S4x2.size a
  hwx1_5 : ∀ i : grid1.Coords, EltTy.bits .f32 = 32 ∨ (Rect.block (s := S4x2) S4x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x4_S5000x4_1_0_0_1_n_n : DotDims S5000x128 S128x4 S5000x4 where
  lhsContracting := [1]
  rhsContracting := [0]
  lhsNonContracting := [0]
  rhsNonContracting := [1]
  lhsBatch := []
  rhsBatch := []
  wf := dot_S5000x128_S128x4_S5000x4_1_0_0_1_n_n_wf
def dot_S5000x4_S4x2_S5000x2_1_0_0_1_n_n : DotDims S5000x4 S4x2 S5000x2 where
  lhsContracting := [1]
  rhsContracting := [0]
  lhsNonContracting := [0]
  rhsNonContracting := [1]
  lhsBatch := []
  rhsBatch := []
  wf := dot_S5000x4_S4x2_S5000x2_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S128x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S128x4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S4x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S4x128 : Shape := ⟨2, ![4, 128]⟩
abbrev S4 : Shape := ⟨1, ![4]⟩
abbrev S2x4 : Shape := ⟨2, ![2, 4]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x4 : Shape := ⟨2, ![128, 4]⟩
abbrev S100000x4 : Shape := ⟨2, ![100000, 4]⟩
abbrev S1x4 : Shape := ⟨2, ![1, 4]⟩
abbrev S4x2 : Shape := ⟨2, ![4, 2]⟩
abbrev S100000x2 : Shape := ⟨2, ![100000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S4x128, .f32⟩
  | .hbm, ⟨6, _⟩ => ⟨S4, .f32⟩
  | .hbm, ⟨7, _⟩ => ⟨S4x128, .f32⟩
  | .hbm, ⟨8, _⟩ => ⟨S2x4, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x4, .f32⟩
  | .hbm, ⟨74, _⟩ => ⟨S100000x4, .f32⟩
  | .hbm, ⟨75, _⟩ => ⟨S1x4, .f32⟩
  | .hbm, ⟨76, _⟩ => ⟨S100000x4, .f32⟩
  | .hbm, ⟨77, _⟩ => ⟨S100000x4, .f32⟩
  | .hbm, ⟨78, _⟩ => ⟨S128x4, .f32⟩
  | .hbm, ⟨79, _⟩ => ⟨S100000x4, .f32⟩
  | .hbm, ⟨80, _⟩ => ⟨S100000x4, .f32⟩
  | .hbm, ⟨81, _⟩ => ⟨S4x2, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S4x128_S128x4_1_0 : S4x128.Transposes [1, 0] S128x4
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  transposes_S2x4_S4x2_1_0 : S2x4.Transposes [1, 0] S4x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x4_S100000x4_1_0_0_1_n_n_wf : DotDims.WF S100000x128 S128x4 S100000x4 [1] [0] [0] [1] [] []
  dot_S100000x4_S4x2_S100000x2_1_0_0_1_n_n_wf : DotDims.WF S100000x4 S4x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x4_S100000x4_1_0_0_1_n_n : DotDims S100000x128 S128x4 S100000x4 where
  lhsContracting := [1]
  rhsContracting := [0]
  lhsNonContracting := [0]
  rhsNonContracting := [1]
  lhsBatch := []
  rhsBatch := []
  wf := dot_S100000x128_S128x4_S100000x4_1_0_0_1_n_n_wf
def dot_S100000x4_S4x2_S100000x2_1_0_0_1_n_n : DotDims S100000x4 S4x2 S100000x2 where
  lhsContracting := [1]
  rhsContracting := [0]
  lhsNonContracting := [0]
  rhsNonContracting := [1]
  lhsBatch := []
  rhsBatch := []
  wf := dot_S100000x4_S4x2_S100000x2_1_0_0_1_n_n_wf

class Facts : Prop extends Facts₀ where

variable [Facts]
-- ==== Proof.KernelHost.lean ====
/-
  The host operations around the two kernel regions, read as functions of @main's arguments.

  Before the first region the host splits the edge list into sources and destinations, counts every node's incoming
  edges (ones added at the destinations), takes `1 / max (count, 1)` as a column, sums over every node's incoming
  edges the source node's feature row, multiplies that sum by the reciprocal column (the neighbour MEAN), and
  transposes the weight matrices. Between the regions it does the same aggregation on the first region's result.
  Each array a region's window stages is named here as one such function of the arguments (and, for the second
  region, of the first region's result array), by unfolding the host operations in order.
-/
import proofs.«156157_j12146167513369_1_alg».proof.Proof.Gen.KernelIdeal.Frame
import Idealize.ShloMosaic.Lib.StableHlo.Run
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- The contents of a 32-bit integer array of shape `S`. -/
abbrev CI (S : Shape) : Type := IVec S 32
/-- The contents of a float array of shape `S`, as extended reals. -/
abbrev CF (S : Shape) : Type := FVec Ideal S .f32

/-- Row 0 of the edge list: each edge's source node. -/
def srcRaw (x1 : CI S2x1600000) : CI S1600000 :=
  shapeCast _ (extractStridedSlice S1x1600000 ![0, 0] x1 slices_S2x1600000_S1x1600000_0_0) shapeCasts_S1x1600000_S1600000
/-- Row 1 of the edge list: each edge's destination node. -/
def dstRaw (x1 : CI S2x1600000) : CI S1600000 :=
  shapeCast _ (extractStridedSlice S1x1600000 ![1, 0] x1 slices_S2x1600000_S1x1600000_1_0) shapeCasts_S1x1600000_S1600000
/-- The gather's start indices: a negative source index counts from the end (`s + 100000`). -/
def srcIdx (s : CI S1600000) : CI S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The scatter's indices: the destinations as a column. -/
def dstIdx (d : CI S1600000) : CI S1600000x1 := broadcastInDim S1600000x1 ![0] bcast_S1600000_S1600000x1_0 d
/-- The in-degree of every node: ones added at the destinations, into zeros. -/
def degree (d : CI S1600000) : CF S100000 :=
  Host.scatterAdd scatter_S100000_S1600000x1_S1600000_n_0_0_1
    (broadcastInDim S100000 ![] bcast_S_S100000 (constant (F := Ideal) S_ .f32 0x00000000#32)) (dstIdx d)
    (broadcastInDim S1600000 ![] bcast_S_S1600000 (constant (F := Ideal) S_ .f32 0x3F800000#32))
/-- `1 / max (degree, 1)`, as a column. -/
def recip (d : CI S1600000) : CF S100000x1 :=
  shapeCast _ (Host.divf (broadcastInDim S100000 ![] bcast_S_S100000 (constant (F := Ideal) S_ .f32 0x3F800000#32))
    (maximumf (degree d) (broadcastInDim S100000 ![] bcast_S_S100000 (constant (F := Ideal) S_ .f32 0x3F800000#32)))) shapeCasts_S100000_S100000x1
/-- The sum over each node's incoming edges of the source node's row of `h`. -/
def aggregate (h : CF S100000x128) (s d : CI S1600000) : CF S100000x128 :=
  Host.scatterAdd scatter_S100000x128_S1600000x1_S1600000x128_1_0_0_1
    (broadcastInDim S100000x128 ![] bcast_S_S100000x128 (constant (F := Ideal) S_ .f32 0x00000000#32)) (dstIdx d)
    (Host.gather gather_S100000x128_S1600000x1_S1600000x128_1_0_n_n_0_1_1128 h (srcIdx s))
/-- The neighbour mean: the aggregate times the reciprocal column, row by row. -/
def mean (h : CF S100000x128) (s d : CI S1600000) (r : CF S100000x1) : CF S100000x128 :=
  mulf (aggregate h s d) (broadcastInDim S100000x128 ![0, 1] bcast_S100000x1_S100000x128_0_1 r)

variable (m : (ℓ : Loc nD τ sig) → Buf (Elt Ideal) ℓ) (ρ : Dev nD → PrngReg)

/-! ## After the first host stretch (the first region's entry contents) -/

set_option maxHeartbeats 4000000 in
theorem W1_v1 (c : Dev nD) : W1 m ρ c (Proc.devRef .tc main_v1) = srcRaw (m ((c : Thread nD τ).loc main_arg1)) := by
  show StableHlo.after hostOps0 (W0 m ρ c) (Proc.devRef .tc main_v1) = _
  after_results_simp <;> rfl

set_option maxHeartbeats 4000000 in
theorem W1_v3 (c : Dev nD) : W1 m ρ c (Proc.devRef .tc main_v3) = dstRaw (m ((c : Thread nD τ).loc main_arg1)) := by
  show StableHlo.after hostOps0 (W0 m ρ c) (Proc.devRef .tc main_v3) = _
  after_results_simp <;> rfl

set_option maxHeartbeats 4000000 in
theorem W1_v12 (c : Dev nD) : W1 m ρ c (Proc.devRef .tc main_v12) = recip (dstRaw (m ((c : Thread nD τ).loc main_arg1))) := by
  show StableHlo.after hostOps0 (W0 m ρ c) (Proc.devRef .tc main_v12) = _
  after_results_simp <;> rfl

set_option maxHeartbeats 4000000 in
theorem W1_v24 (c : Dev nD) : W1 m ρ c (Proc.devRef .tc main_v24) = mean (m ((c : Thread nD τ).loc main_arg0)) (srcRaw (m ((c : Thread nD τ).loc main_arg1))) (dstRaw (m ((c : Thread nD τ).loc main_arg1))) (recip (dstRaw (m ((c : Thread nD τ).loc main_arg1)))) := by
  show StableHlo.after hostOps0 (W0 m ρ c) (Proc.devRef .tc main_v24) = _
  after_results_simp <;> rfl

set_option maxHeartbeats 4000000 in
theorem W1_v25 (c : Dev nD) : W1 m ρ c (Proc.devRef .tc main_v25) = transpose S128x128 [1, 0] (m ((c : Thread nD τ).loc main_arg2)) transposes_S128x128_S128x128_1_0 := by
  show StableHlo.after hostOps0 (W0 m ρ c) (Proc.devRef .tc main_v25) = _
  after_results_simp <;> rfl

set_option maxHeartbeats 4000000 in
theorem W1_v26 (c : Dev nD) : W1 m ρ c (Proc.devRef .tc main_v26) = transpose S128x128 [1, 0] (m ((c : Thread nD τ).loc main_arg4)) transposes_S128x128_S128x128_1_0 := by
  show StableHlo.after hostOps0 (W0 m ρ c) (Proc.devRef .tc main_v26) = _
  after_results_simp <;> rfl

set_option maxHeartbeats 4000000 in
theorem W1_v27 (c : Dev nD) : W1 m ρ c (Proc.devRef .tc main_v27) = shapeCast _ (m ((c : Thread nD τ).loc main_arg3)) shapeCasts_S128_S1x128 := by
  show StableHlo.after hostOps0 (W0 m ρ c) (Proc.devRef .tc main_v27) = _
  after_results_simp <;> rfl

set_option maxHeartbeats 4000000 in
theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

set_option maxHeartbeats 4000000 in
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl

set_option maxHeartbeats 4000000 in
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl

set_option maxHeartbeats 4000000 in
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

set_option maxHeartbeats 4000000 in
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl

set_option maxHeartbeats 4000000 in
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl

/-! ## After the first region: its result array at what the pipeline leaves, every other buffer as entered -/

theorem W2_v28 (c : Dev nD) : W2 m ρ c (Proc.devRef .tc main_v28) = (dat0 (V1 m ρ) c).arrAt 5 cfg0.N := W2_arr m ρ c 5
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_v12 (c : Dev nD) : W2 m ρ c (Proc.devRef .tc main_v12) = W1 m ρ c (Proc.devRef .tc main_v12) := W2_of_ne m ρ c main_v12 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_arg7 (c : Dev nD) : W2 m ρ c (Proc.devRef .tc main_arg7) = W1 m ρ c (Proc.devRef .tc main_arg7) := W2_of_ne m ρ c main_arg7 (by decide)
theorem W2_arg8 (c : Dev nD) : W2 m ρ c (Proc.devRef .tc main_arg8) = W1 m ρ c (Proc.devRef .tc main_arg8) := W2_of_ne m ρ c main_arg8 (by decide)
theorem W2_arg9 (c : Dev nD) : W2 m ρ c (Proc.devRef .tc main_arg9) = W1 m ρ c (Proc.devRef .tc main_arg9) := W2_of_ne m ρ c main_arg9 (by decide)

/-! ## After the second host stretch (the second region's entry contents) -/

set_option maxHeartbeats 4000000 in
theorem W3_v40 (c : Dev nD) : W3 m ρ c (Proc.devRef .tc main_v40) = mean (W2 m ρ c (Proc.devRef .tc main_v28)) (W2 m ρ c (Proc.devRef .tc main_v1)) (W2 m ρ c (Proc.devRef .tc main_v3)) (W2 m ρ c (Proc.devRef .tc main_v12)) := by
  show StableHlo.after hostOps1 (W2 m ρ c) (Proc.devRef .tc main_v40) = _
  after_results_simp <;> rfl

set_option maxHeartbeats 4000000 in
theorem W3_v28 (c : Dev nD) : W3 m ρ c (Proc.devRef .tc main_v28) = (W2 m ρ c (Proc.devRef .tc main_v28)) := by
  show StableHlo.after hostOps1 (W2 m ρ c) (Proc.devRef .tc main_v28) = _
  after_results_simp <;> rfl

set_option maxHeartbeats 4000000 in
theorem W3_v41 (c : Dev nD) : W3 m ρ c (Proc.devRef .tc main_v41) = transpose S128x4 [1, 0] (W2 m ρ c (Proc.devRef .tc main_arg5)) transposes_S4x128_S128x4_1_0 := by
  show StableHlo.after hostOps1 (W2 m ρ c) (Proc.devRef .tc main_v41) = _
  after_results_simp <;> rfl

set_option maxHeartbeats 4000000 in
theorem W3_v42 (c : Dev nD) : W3 m ρ c (Proc.devRef .tc main_v42) = transpose S128x4 [1, 0] (W2 m ρ c (Proc.devRef .tc main_arg7)) transposes_S4x128_S128x4_1_0 := by
  show StableHlo.after hostOps1 (W2 m ρ c) (Proc.devRef .tc main_v42) = _
  after_results_simp <;> rfl

set_option maxHeartbeats 4000000 in
theorem W3_v43 (c : Dev nD) : W3 m ρ c (Proc.devRef .tc main_v43) = transpose S4x2 [1, 0] (W2 m ρ c (Proc.devRef .tc main_arg8)) transposes_S2x4_S4x2_1_0 := by
  show StableHlo.after hostOps1 (W2 m ρ c) (Proc.devRef .tc main_v43) = _
  after_results_simp <;> rfl

set_option maxHeartbeats 4000000 in
theorem W3_v44 (c : Dev nD) : W3 m ρ c (Proc.devRef .tc main_v44) = shapeCast _ (W2 m ρ c (Proc.devRef .tc main_arg6)) shapeCasts_S4_S1x4 := by
  show StableHlo.after hostOps1 (W2 m ρ c) (Proc.devRef .tc main_v44) = _
  after_results_simp <;> rfl

set_option maxHeartbeats 4000000 in
theorem W3_v45 (c : Dev nD) : W3 m ρ c (Proc.devRef .tc main_v45) = shapeCast _ (W2 m ρ c (Proc.devRef .tc main_arg9)) shapeCasts_S2_S1x2 := by
  show StableHlo.after hostOps1 (W2 m ρ c) (Proc.devRef .tc main_v45) = _
  after_results_simp <;> rfl

end Cert.KernelIdeal.Host

end
-- ==== Proof.Spec.lean ====
/-
  The two dense layers of a two-layer mean-aggregation graph network, index by index on the extended reals, and the
  two small laws that join a kernel's arrangement of them to the reference's.

  * `dense1 a x wl wr b` at node `r`, feature `q`:  max ((Σ_k a[r,k]·wl[k,q] + Σ_k x[r,k]·wr[k,q]) + b[q], 0)
    — the neighbour mean `a` and the node's own features `x`, each through its (already transposed) weight matrix,
    the bias added last, then the rectifier.
  * `dense2 a h wl wr b wo bo` at node `r`, output `q`:
    Σ_j ((Σ_k a[r,k]·wl[k,j] + Σ_k h[r,k]·wr[k,j]) + b[j]) · wo[j,q] + bo[q]
    — the second layer (no rectifier) followed by the final linear map.
  * Adding the bias before or after the second product is the same sum: addition on the extended reals is
    commutative and associative, so no finiteness is needed.
  * Multiplying by the reciprocal `1 / d` is dividing by `d` whenever `d ≠ 0` — in particular for `d = max (n, 1)`,
    which is at least `1` — because the quotient by a nonzero `d` IS the product with `d⁻¹`, and `1 · d⁻¹ = d⁻¹`.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- An array of extended reals over two literal extents. -/
abbrev Arr2 (n0 n1 : Nat) : Type := (⟨2, ![n0, n1]⟩ : Shape).Idx → EReal
/-- An array of extended reals over one literal extent. -/
abbrev Arr1 (n : Nat) : Type := (⟨1, ![n]⟩ : Shape).Idx → EReal

/-- The first layer at node `r`, feature `q`, the bias added after both products. -/
def dense1At (a x : Arr2 100000 128) (wl wr : Arr2 128 128) (b : Arr1 128) (r : Fin 100000) (q : Fin 128) : EReal :=
  max (((∑ k : Fin 128, a (ix2 r k) * wl (ix2 k q)) + (∑ k : Fin 128, x (ix2 r k) * wr (ix2 k q))) + b (ix1 q)) 0

/-- The first layer as an array. -/
def dense1 (a x : Arr2 100000 128) (wl wr : Arr2 128 128) (b : Arr1 128) : Arr2 100000 128 :=
  fun i => dense1At a x wl wr b (i 0) (i 1)

theorem dense1_apply (a x : Arr2 100000 128) (wl wr : Arr2 128 128) (b : Arr1 128) (r : Fin 100000) (q : Fin 128) :
    dense1 a x wl wr b (ix2 r q) = dense1At a x wl wr b r q := rfl

/-- The second layer's pre-output at node `r`, class `j`, the bias added after both products. -/
def hidden2At (a h : Arr2 100000 128) (wl wr : Arr2 128 4) (b : Arr1 4) (r : Fin 100000) (j : Fin 4) : EReal :=
  ((∑ k : Fin 128, a (ix2 r k) * wl (ix2 k j)) + (∑ k : Fin 128, h (ix2 r k) * wr (ix2 k j))) + b (ix1 j)

/-- The second layer followed by the final linear map, at node `r`, output `q`. -/
def dense2At (a h : Arr2 100000 128) (wl wr : Arr2 128 4) (b : Arr1 4) (wo : Arr2 4 2) (bo : Arr1 2)
    (r : Fin 100000) (q : Fin 2) : EReal :=
  (∑ j : Fin 4, hidden2At a h wl wr b r j * wo (ix2 j q)) + bo (ix1 q)

/-- The second layer and the final linear map as an array. -/
def dense2 (a h : Arr2 100000 128) (wl wr : Arr2 128 4) (b : Arr1 4) (wo : Arr2 4 2) (bo : Arr1 2) : Arr2 100000 2 :=
  fun i => dense2At a h wl wr b wo bo (i 0) (i 1)

theorem dense2_apply (a h : Arr2 100000 128) (wl wr : Arr2 128 4) (b : Arr1 4) (wo : Arr2 4 2) (bo : Arr1 2)
    (r : Fin 100000) (q : Fin 2) :
    dense2 a h wl wr b wo bo (ix2 r q) = dense2At a h wl wr b wo bo r q := rfl

/-- The bias may be added between the two products instead of after them. -/
theorem add_bias_between (s t b : EReal) : (s + b) + t = (s + t) + b := by
  rw [add_assoc, add_comm b t, ← add_assoc]

/-- The quotient by a nonzero extended real is the product with the reciprocal taken first. -/
theorem mul_one_div (x d : EReal) (hd : d ≠ 0) : x * Ideal.div 1 d = Ideal.div x d := by
  unfold Ideal.div
  rw [if_neg hd, if_neg hd, one_mul]

/-- A maximum with `1` is never `0`. -/
theorem max_one_ne_zero (n : EReal) : max n 1 ≠ 0 := by
  intro h
  have h1 : (1 : EReal) ≤ max n 1 := le_max_right _ _
  rw [h] at h1
  exact absurd h1 (by norm_num)

end Cert.Sage

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelLayer1.lean ====
/-
  The first region's result array as ONE function of the arrays its windows stage.

  The region runs on a grid of 20 points; at point `t` the two row windows stage rows `5000·t … 5000·t + 4999` of the
  neighbour-mean array and of the node features, the three small windows stage the two (already transposed) weight
  matrices and the bias row whole, and the body stores
      max ((mean_blk · Wl + x_blk · Wr) + bias_row, 0)
  into the output window's block, which is written back to the same rows of the result array. A matrix product into a
  zero accumulator is, entry by entry, the plain sum over the contracted coordinate, and a change of float format is
  the identity on the extended reals, so entry `(p, q)` of the block at point `t` is the first dense layer at node
  `5000·t + p`, feature `q`. The 20 blocks tile the 100000 rows, so the whole result array is that layer.
  Everything here holds whatever the buffers hold when the region is entered (`V`).
-/
import proofs.«156157_j12146167513369_1_alg».proof.Proof.Gen.KernelIdeal.Frame
import proofs.«156157_j12146167513369_1_alg».proof.Proof.Spec
import proofs.«156157_j12146167513369_1_alg».proof.Proof.LibRowDims
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer1

open Cert.KernelIdeal Cert.KernelIdeal.Gen Idealize.ShloMosaic Idealize.ShloMosaic.TcCoe Idealize.SL.Sem
open Idealize.ShloMosaic.ValueIdx Idealize.ShloMosaic.RowDims Cert.Sage
open Idealize.ShloMosaic.Pipeline (Dat)

/-- THE BODY'S STORED VALUE at entry `(p, q)` of the block: both products as sums over the 128 contracted
    coordinates, the bias row's entry `q`, and the rectifier against the zero word. -/
theorem pay_apply (x0 x1 : Vec Ideal S5000x128 .f32) (x2 x4 : Vec Ideal S128x128 .f32) (x3 : Vec Ideal S1x128 .f32)
    (p : Fin 5000) (q : Fin 128) :
    k0_pay1 (F := Ideal) x0 x1 x2 x4 x3 (ix2 p q)
      = max (((∑ k : Fin 128, x0 (ix2 p k) * x2 (ix2 k q)) + (∑ k : Fin 128, x1 (ix2 p k) * x4 (ix2 k q))) + x3 (ix2 0 q)) 0 := by
  unfold k0_pay1
  simp only [shapeCast_self]
  rw [maximumf_apply, addf_apply, addf_apply, broadcast_apply]
  have hm : ∀ (a : FVec Ideal S5000x128 .bf16) (b : FVec Ideal S128x128 .bf16),
      matmul dot_S5000x128_S128x128_S5000x128_1_0_0_1_n_n none a b (constant S5000x128 .f32 0x00000000#32) (ix2 p q)
        = ∑ k : Fin 128, a (ix2 p k) * b (ix2 k q) :=
    fun a b => matmul_plain_zero_apply (M := 5000) (K := 128) (N := 128) none a b p q
  have hb : broadcastTo S5000x128 x3 broadcasts_S1x128_S5000x128 (ix2 p q) = x3 (ix2 0 q) :=
    broadcastTo_apply x3 broadcasts_S1x128_S5000x128 (ix2 p q) (ix2 0 q) (fun a => match a with
      | ⟨0, _⟩ => rfl
      | ⟨1, _⟩ => rfl)
  rw [hm, hm, hb]
  show max _ (Ideal.ofBits .f32 0x00000000#32) = _
  rw [Ideal.ofBits_zero_f32]
  rfl

variable (V : (c : Dev nD) → (b : Ref sig .tc) → Buf (Elt Ideal) ((c : Thread nD τ).loc b))

/-- The stores and loads of the body are at the origin of their buffers. -/
theorem hz : (![0, 0] : Fin 2 → Nat) = fun _ => 0 := funext fun a => by fin_cases a <;> rfl

/-- The printed index maps over the grid: the row windows and the output move with the grid point, the small windows
    stay at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has 20 points. -/
theorem N20 : cfg0.N = 20 := N_0

/-- Row `p` of the block at grid point `t` is row `5000·t + p` of the array. -/
def rowOf (t : Fin cfg0.N) (p : Fin 5000) : Fin 100000 :=
  ⟨t.val * 5000 + p.val, by have h : t.val < 20 := lt_of_lt_of_eq t.isLt N20; have := p.isLt; omega⟩

/-- The neighbour-mean window's block at point `t`, read at `(p, k)`, is the array at row `5000·t + p`. -/
theorem rd0 (c : Dev nD) (t : Fin cfg0.N) (p : Fin 5000) (k : Fin 128) :
    iblk0 V c 0 t (ix2 p k) = V c main_v24 (ix2 (rowOf t p) k) := by
  obtain ⟨e0, e1, -⟩ := idx_facts t
  show V c main_v24 (((cfg0.win 0).blk t).view.emb (ix2 p k)) = _
  congr 1
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- The feature window's block at point `t`, read at `(p, k)`, is the array at row `5000·t + p`. -/
theorem rd1 (c : Dev nD) (t : Fin cfg0.N) (p : Fin 5000) (k : Fin 128) :
    iblk0 V c 1 t (ix2 p k) = V c main_arg0 (ix2 (rowOf t p) k) := by
  obtain ⟨-, -, e0, e1, -⟩ := idx_facts t
  show V c main_arg0 (((cfg0.win 1).blk t).view.emb (ix2 p k)) = _
  congr 1
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- The left weight window's one block is the whole matrix. -/
theorem rd2 (c : Dev nD) (t : Fin cfg0.N) (k : Fin 128) (q : Fin 128) :
    iblk0 V c 2 t (ix2 k q) = V c main_v25 (ix2 k q) := by
  obtain ⟨-, -, -, -, e0, e1, -⟩ := idx_facts t
  show V c main_v25 (((cfg0.win 2).blk t).view.emb (ix2 k q)) = _
  congr 1
  funext a; apply Fin.ext
  match a with
  | ⟨0, _⟩ => show win0_2.index t (0 : Fin 2) * 128 + 1 * k.val = k.val; omega
  | ⟨1, _⟩ => show win0_2.index t (1 : Fin 2) * 128 + 1 * q.val = q.val; omega

/-- The bias window's one block is the whole row. -/
theorem rd3 (c : Dev nD) (t : Fin cfg0.N) (q : Fin 128) :
    iblk0 V c 3 t (ix2 0 q) = V c main_v27 (ix2 0 q) := by
  obtain ⟨-, -, -, -, -, -, e0, e1, -⟩ := idx_facts t
  show V c main_v27 (((cfg0.win 3).blk t).view.emb (ix2 0 q)) = _
  congr 1
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- The right weight window's one block is the whole matrix. -/
theorem rd4 (c : Dev nD) (t : Fin cfg0.N) (k : Fin 128) (q : Fin 128) :
    iblk0 V c 4 t (ix2 k q) = V c main_v26 (ix2 k q) := by
  obtain ⟨-, -, -, -, -, -, -, -, e0, e1, -⟩ := idx_facts t
  show V c main_v26 (((cfg0.win 4).blk t).view.emb (ix2 k q)) = _
  congr 1
  funext a; apply Fin.ext
  match a with
  | ⟨0, _⟩ => show win0_4.index t (0 : Fin 2) * 128 + 1 * k.val = k.val; omega
  | ⟨1, _⟩ => show win0_4.index t (1 : Fin 2) * 128 + 1 * q.val = q.val; omega

/-- Entry `(p, q)` of the output block at point `t` is entry `(5000·t + p, q)` of the result array. -/
theorem emb5 (t : Fin cfg0.N) (p : Fin 5000) (q : Fin 128) :
    ((cfg0.win 5).blk t).view.emb (ix2 p q) = ix2 (rowOf t p) q := by
  obtain ⟨-, -, -, -, -, -, -, -, -, -, e0, e1⟩ := idx_facts t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- WHAT POINT `t` WRITES BACK is block `t` of the first dense layer of the staged arrays. -/
theorem flushed_eq (c : Dev nD) (t : Fin cfg0.N) :
    (dat0 V c).flushed 5 t = ((cfg0.win 5).blk t).view.read (Elt Ideal)
      (dense1 (V c main_v24) (V c main_arg0) (V c main_v25) (V c main_v26) (fun i => V c main_v27 (ix2 0 (i 0)))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 4 t) (iblk0 V c 3 t) (ix2 p q)
    = dense1 (V c main_v24) (V c main_arg0) (V c main_v25) (V c main_v26) (fun i => V c main_v27 (ix2 0 (i 0)))
        (((cfg0.win 5).blk t).view.emb (ix2 p q))
  refine (pay_apply (iblk0 V c 0 t) (iblk0 V c 1 t) (iblk0 V c 2 t) (iblk0 V c 4 t) (iblk0 V c 3 t) p q).trans ?_
  rw [emb5 t p q, dense1_apply]
  unfold dense1At
  simp only [rd0, rd1, rd2, rd3, rd4]

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- Every index of the result array lies in the block of the grid point that owns its row. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < cfg0.N := lt_of_lt_of_eq (by omega : (i 0).val / 5000 < 20) N20.symm
  obtain ⟨-, -, -, -, -, -, -, -, -, -, e0, e1⟩ := idx_facts ⟨(i 0).val / 5000, hlt⟩
  have e0' : win0_5.index ⟨(i 0).val / 5000, hlt⟩ (0 : Fin 2) = (i 0).val / 5000 := e0
  refine ⟨⟨(i 0).val / 5000, hlt⟩, flush0_5 _, ?_⟩
  rw [mem_blk]
  intro a
  match a with
  | ⟨0, _⟩ =>
    show win0_5.index ⟨(i 0).val / 5000, hlt⟩ (0 : Fin 2) * 5000 ≤ (i 0).val
      ∧ (i 0).val < win0_5.index ⟨(i 0).val / 5000, hlt⟩ (0 : Fin 2) * 5000 + 5000
    omega
  | ⟨1, _⟩ =>
    show win0_5.index ⟨(i 0).val / 5000, hlt⟩ (1 : Fin 2) * 128 ≤ (i 1).val
      ∧ (i 1).val < win0_5.index ⟨(i 0).val / 5000, hlt⟩ (1 : Fin 2) * 128 + 128
    omega

/-- THE FIRST REGION'S RESULT ARRAY, whatever the buffers hold when the region is entered: the first dense layer of
    the arrays its windows stage. -/
theorem final (c : Dev nD) :
    (dat0 V c).arrAt 5 cfg0.N
      = dense1 (V c main_v24) (V c main_arg0) (V c main_v25) (V c main_v26) (fun i => V c main_v27 (ix2 0 (i 0))) :=
  (dat0 V c).arrAt_eq_of_cover 5 _ (fun t _ => flushed_eq V c t) cover

end Cert.KernelIdeal.Layer1

end
-- ==== Proof.KernelLayer2.lean ====
/-
  The second region's result array as ONE function of the arrays its windows stage.

  The region runs on a grid of 20 points; at point `t` the two row windows stage rows `5000·t … 5000·t + 4999` of the
  second neighbour-mean array and of the first layer's output, and the five small windows stage whole the two
  (already transposed) 128×4 weight matrices, the 1×4 bias row, the 4×2 output matrix and the 1×2 output bias row.
  The body stores
      ((mean_blk · Wl + h_blk · Wr) + bias_row) · Wo + out_bias_row
  into the output window's block, which is written back to the same rows of the result array. A matrix product into a
  zero accumulator is, entry by entry, the plain sum over the contracted coordinate, and a change of float format is
  the identity on the extended reals; so the inner 5000×4 value at `(p, j)` is the second layer's pre-output at node
  `5000·t + p`, class `j`, and entry `(p, q)` of the stored block is the sum over the four classes of that
  pre-output times `Wo[j, q]`, plus the output bias at `q`. The 20 blocks tile the 100000 rows, so the whole result
  array is the second layer followed by the final linear map.
  Everything here holds whatever the buffers hold when the region is entered (`V`).
-/
import proofs.«156157_j12146167513369_1_alg».proof.Proof.Gen.KernelIdeal.Frame
import proofs.«156157_j12146167513369_1_alg».proof.Proof.Spec
import proofs.«156157_j12146167513369_1_alg».proof.Proof.LibRowDims
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Layer2

open Cert.KernelIdeal Cert.KernelIdeal.Gen Idealize.ShloMosaic Idealize.ShloMosaic.TcCoe Idealize.SL.Sem
open Idealize.ShloMosaic.ValueIdx Idealize.ShloMosaic.RowDims Cert.Sage
open Idealize.ShloMosaic.Pipeline (Dat)

/-- THE BODY'S STORED VALUE at entry `(p, q)` of the block: the outer product over the four classes as a sum whose
    left factor at class `j` is the two inner products over the 128 contracted coordinates plus the bias row's entry
    `j`; then the output bias row's entry `q`. -/
theorem pay_apply (x0 x1 : Vec Ideal S5000x128 .f32) (x2 x4 : Vec Ideal S128x4 .f32) (x3 : Vec Ideal S1x4 .f32)
    (x5 : Vec Ideal S4x2 .f32) (x6 : Vec Ideal S1x2 .f32) (p : Fin 5000) (q : Fin 2) :
    k1_pay1 (F := Ideal) x0 x1 x2 x4 x3 x5 x6 (ix2 p q)
      = (∑ j : Fin 4, (((∑ k : Fin 128, x0 (ix2 p k) * x2 (ix2 k j)) + (∑ k : Fin 128, x1 (ix2 p k) * x4 (ix2 k j)))
            + x3 (ix2 0 j)) * x5 (ix2 j q)) + x6 (ix2 0 q) := by
  unfold k1_pay1
  simp only [shapeCast_self]
  rw [addf_apply]
  have hm1 : ∀ (j : Fin 4) (a : FVec Ideal S5000x128 .bf16) (b : FVec Ideal S128x4 .bf16),
      matmul dot_S5000x128_S128x4_S5000x4_1_0_0_1_n_n none a b (constant S5000x4 .f32 0x00000000#32) (ix2 p j)
        = ∑ k : Fin 128, a (ix2 p k) * b (ix2 k j) :=
    fun j a b => matmul_plain_zero_apply (M := 5000) (K := 128) (N := 4) none a b p j
  have hm2 : ∀ (a : FVec Ideal S5000x4 .bf16) (b : FVec Ideal S4x2 .bf16),
      matmul dot_S5000x4_S4x2_S5000x2_1_0_0_1_n_n none a b (constant S5000x2 .f32 0x00000000#32) (ix2 p q)
        = ∑ j : Fin 4, a (ix2 p j) * b (ix2 j q) :=
    fun a b => matmul_plain_zero_apply (M := 5000) (K := 4) (N := 2) none a b p q
  have hb3 : ∀ j : Fin 4, broadcastTo S5000x4 x3 broadcasts_S1x4_S5000x4 (ix2 p j) = x3 (ix2 0 j) := fun j =>
    broadcastTo_apply x3 broadcasts_S1x4_S5000x4 (ix2 p j) (ix2 0 j) (fun a => match a with
      | ⟨0, _⟩ => rfl
      | ⟨1, _⟩ => rfl)
  have hb6 : broadcastTo S5000x2 x6 broadcasts_S1x2_S5000x2 (ix2 p q) = x6 (ix2 0 q) :=
    broadcastTo_apply x6 broadcasts_S1x2_S5000x2 (ix2 p q) (ix2 0 q) (fun a => match a with
      | ⟨0, _⟩ => rfl
      | ⟨1, _⟩ => rfl)
  rw [hm2, hb6]
  congr 1
  refine Finset.sum_congr rfl fun j _ => ?_
  rw [truncf_apply, truncf_apply, addf_apply, addf_apply, hm1, hm1, hb3]
  rfl

variable (V : (c : Dev nD) → (b : Ref sig .tc) → Buf (Elt Ideal) ((c : Thread nD τ).loc b))

/-- The stores and loads of the body are at the origin of their buffers. -/
theorem hz : (![0, 0] : Fin 2 → Nat) = fun _ => 0 := funext fun a => by fin_cases a <;> rfl

/-- The printed index maps over the grid: the two row windows and the output move with the grid point, the five small
    windows stay at block `(0, 0)`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The grid has 20 points. -/
theorem N20 : cfg1.N = 20 := N_1

/-- Row `p` of the block at grid point `t` is row `5000·t + p` of the array. -/
def rowOf (t : Fin cfg1.N) (p : Fin 5000) : Fin 100000 :=
  ⟨t.val * 5000 + p.val, by have h : t.val < 20 := lt_of_lt_of_eq t.isLt N20; have := p.isLt; omega⟩

/-- The neighbour-mean window's block at point `t`, read at `(p, k)`, is the array at row `5000·t + p`. -/
theorem rd0 (c : Dev nD) (t : Fin cfg1.N) (p : Fin 5000) (k : Fin 128) :
    iblk1 V c 0 t (ix2 p k) = V c main_v40 (ix2 (rowOf t p) k) := by
  obtain ⟨e0, e1, -⟩ := idx_facts t
  show V c main_v40 (((cfg1.win 0).blk t).view.emb (ix2 p k)) = _
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The first layer's output window's block at point `t`, read at `(p, k)`, is the array at row `5000·t + p`. -/
theorem rd1 (c : Dev nD) (t : Fin cfg1.N) (p : Fin 5000) (k : Fin 128) :
    iblk1 V c 1 t (ix2 p k) = V c main_v28 (ix2 (rowOf t p) k) := by
  obtain ⟨-, -, e0, e1, -⟩ := idx_facts t
  show V c main_v28 (((cfg1.win 1).blk t).view.emb (ix2 p k)) = _
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The left weight window's one block is the whole 128×4 matrix. -/
theorem rd2 (c : Dev nD) (t : Fin cfg1.N) (k : Fin 128) (j : Fin 4) :
    iblk1 V c 2 t (ix2 k j) = V c main_v41 (ix2 k j) := by
  obtain ⟨-, -, -, -, e0, e1, -⟩ := idx_facts t
  show V c main_v41 (((cfg1.win 2).blk t).view.emb (ix2 k j)) = _
  congr 1
  funext a; apply Fin.ext
  match a with
  | ⟨0, _⟩ => show win1_2.index t (0 : Fin 2) * 128 + 1 * k.val = k.val; omega
  | ⟨1, _⟩ => show win1_2.index t (1 : Fin 2) * 4 + 1 * j.val = j.val; omega

/-- The bias window's one block is the whole 1×4 row. -/
theorem rd3 (c : Dev nD) (t : Fin cfg1.N) (j : Fin 4) :
    iblk1 V c 3 t (ix2 0 j) = V c main_v44 (ix2 0 j) := by
  obtain ⟨-, -, -, -, -, -, e0, e1, -⟩ := idx_facts t
  show V c main_v44 (((cfg1.win 3).blk t).view.emb (ix2 0 j)) = _
  congr 1
  funext a; apply Fin.ext
  match a with
  | ⟨0, _⟩ => show win1_3.index t (0 : Fin 2) * 1 + 1 * 0 = 0; omega
  | ⟨1, _⟩ => show win1_3.index t (1 : Fin 2) * 4 + 1 * j.val = j.val; omega

/-- The right weight window's one block is the whole 128×4 matrix. -/
theorem rd4 (c : Dev nD) (t : Fin cfg1.N) (k : Fin 128) (j : Fin 4) :
    iblk1 V c 4 t (ix2 k j) = V c main_v42 (ix2 k j) := by
  obtain ⟨-, -, -, -, -, -, -, -, e0, e1, -⟩ := idx_facts t
  show V c main_v42 (((cfg1.win 4).blk t).view.emb (ix2 k j)) = _
  congr 1
  funext a; apply Fin.ext
  match a with
  | ⟨0, _⟩ => show win1_4.index t (0 : Fin 2) * 128 + 1 * k.val = k.val; omega
  | ⟨1, _⟩ => show win1_4.index t (1 : Fin 2) * 4 + 1 * j.val = j.val; omega

/-- The output matrix window's one block is the whole 4×2 matrix. -/
theorem rd5 (c : Dev nD) (t : Fin cfg1.N) (j : Fin 4) (q : Fin 2) :
    iblk1 V c 5 t (ix2 j q) = V c main_v43 (ix2 j q) := by
  obtain ⟨-, -, -, -, -, -, -, -, -, -, e0, e1, -⟩ := idx_facts t
  show V c main_v43 (((cfg1.win 5).blk t).view.emb (ix2 j q)) = _
  congr 1
  funext a; apply Fin.ext
  match a with
  | ⟨0, _⟩ => show win1_5.index t (0 : Fin 2) * 4 + 1 * j.val = j.val; omega
  | ⟨1, _⟩ => show win1_5.index t (1 : Fin 2) * 2 + 1 * q.val = q.val; omega

/-- The output bias window's one block is the whole 1×2 row. -/
theorem rd6 (c : Dev nD) (t : Fin cfg1.N) (q : Fin 2) :
    iblk1 V c 6 t (ix2 0 q) = V c main_v45 (ix2 0 q) := by
  obtain ⟨-, -, -, -, -, -, -, -, -, -, -, -, e0, e1, -⟩ := idx_facts t
  show V c main_v45 (((cfg1.win 6).blk t).view.emb (ix2 0 q)) = _
  congr 1
  funext a; apply Fin.ext
  match a with
  | ⟨0, _⟩ => show win1_6.index t (0 : Fin 2) * 1 + 1 * 0 = 0; omega
  | ⟨1, _⟩ => show win1_6.index t (1 : Fin 2) * 2 + 1 * q.val = q.val; omega

/-- Entry `(p, q)` of the output block at point `t` is entry `(5000·t + p, q)` of the result array. -/
theorem emb7 (t : Fin cfg1.N) (p : Fin 5000) (q : Fin 2) :
    ((cfg1.win 7).blk t).view.emb (ix2 p q) = ix2 (rowOf t p) q := by
  obtain ⟨-, -, -, -, -, -, -, -, -, -, -, -, -, -, e0, e1⟩ := idx_facts t
  funext a; apply Fin.ext
  match a with
  | ⟨0, _⟩ => show win1_7.index t (0 : Fin 2) * 5000 + 1 * p.val = t.val * 5000 + p.val; omega
  | ⟨1, _⟩ => show win1_7.index t (1 : Fin 2) * 2 + 1 * q.val = q.val; omega

/-- WHAT POINT `t` WRITES BACK is block `t` of the second layer followed by the final linear map, of the staged
    arrays. -/
theorem flushed_eq (c : Dev nD) (t : Fin cfg1.N) :
    (dat1 V c).flushed 7 t = ((cfg1.win 7).blk t).view.read (Elt Ideal)
      (dense2 (V c main_v40) (V c main_v28) (V c main_v41) (V c main_v42) (fun i => V c main_v44 (ix2 0 (i 0)))
        (V c main_v43) (fun i => V c main_v45 (ix2 0 (i 0)))) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x4) hz, View.ld_unit_zero (S := S1x4) hz,
    View.ld_unit_zero (S := S4x2) hz, View.ld_unit_zero (S := S1x2) hz]
  funext j
  obtain ⟨p, q, rfl⟩ : ∃ (p : Fin 5000) (q : Fin 2), j = ix2 p q := ⟨j 0, j 1, eq_ix2 j⟩
  show k1_pay1 (F := Ideal) (iblk1 V c 0 t) (iblk1 V c 1 t) (iblk1 V c 2 t) (iblk1 V c 4 t) (iblk1 V c 3 t)
      (iblk1 V c 5 t) (iblk1 V c 6 t) (ix2 p q)
    = dense2 (V c main_v40) (V c main_v28) (V c main_v41) (V c main_v42) (fun i => V c main_v44 (ix2 0 (i 0)))
        (V c main_v43) (fun i => V c main_v45 (ix2 0 (i 0))) (((cfg1.win 7).blk t).view.emb (ix2 p q))
  refine (pay_apply (iblk1 V c 0 t) (iblk1 V c 1 t) (iblk1 V c 2 t) (iblk1 V c 4 t) (iblk1 V c 3 t)
    (iblk1 V c 5 t) (iblk1 V c 6 t) p q).trans ?_
  rw [emb7 t p q, dense2_apply]
  unfold dense2At hidden2At
  simp only [rd0, rd1, rd2, rd3, rd4, rd5, rd6]

/-- An index of the array is in point `t`'s block iff each coordinate is in the block's range on its axis. -/
theorem mem_blk (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v46).slice (win1_7.rect t)).set ↔ _
  rw [View.set_slice_whole, Rect.mem_set_unit]
  exact Iff.rfl

/-- Every index of the result array lies in the block of the grid point that owns its row. -/
theorem cover (i : S100000x2.Idx) :
    ∃ t : Fin cfg1.N, (cfg1.win 7).flush t = true ∧ i ∈ ((cfg1.win 7).blk t).view.set := by
  have hi0 : (i 0).val < 100000 := (i 0).isLt
  have hi1 : (i 1).val < 2 := (i 1).isLt
  have hlt : (i 0).val / 5000 < cfg1.N := lt_of_lt_of_eq (by omega : (i 0).val / 5000 < 20) N20.symm
  obtain ⟨-, -, -, -, -, -, -, -, -, -, -, -, -, -, e0, e1⟩ := idx_facts ⟨(i 0).val / 5000, hlt⟩
  have e0' : win1_7.index ⟨(i 0).val / 5000, hlt⟩ (0 : Fin 2) = (i 0).val / 5000 := e0
  refine ⟨⟨(i 0).val / 5000, hlt⟩, flush1_7 _, ?_⟩
  rw [mem_blk]
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    omega
  | ⟨1, _⟩ =>
    show win1_7.index ⟨(i 0).val / 5000, hlt⟩ (1 : Fin 2) * 2 ≤ (i 1).val
      ∧ (i 1).val < win1_7.index ⟨(i 0).val / 5000, hlt⟩ (1 : Fin 2) * 2 + 2
    omega

/-- THE SECOND REGION'S RESULT ARRAY, whatever the buffers hold when the region is entered. -/
theorem final (c : Dev nD) :
    (dat1 V c).arrAt 7 cfg1.N
      = dense2 (V c main_v40) (V c main_v28) (V c main_v41) (V c main_v42) (fun i => V c main_v44 (ix2 0 (i 0)))
          (V c main_v43) (fun i => V c main_v45 (ix2 0 (i 0))) :=
  (dat1 V c).arrAt_eq_of_cover 7 _ (fun t _ => flushed_eq V c t) cover

end Cert.KernelIdeal.Layer2

end
-- ==== Proof.KernelValue.lean ====
/-
  The idealized kernel program's result array as ONE function of @main's arguments.

  The run's last boundary holds the second region's result: the second dense layer (followed by the final linear map)
  of the arrays that region's windows stage. Those are, by the host operations between the regions, the neighbour mean
  of the FIRST region's result, that result itself, and the transposed weights and bias rows of the arguments; and the
  first region's result is the first dense layer of the neighbour mean of the node features, the features, and the
  transposed weights and bias of the arguments. A bias vector reshaped to a one-row matrix and read back at row 0 is
  the vector.
-/
import proofs.«156157_j12146167513369_1_alg».proof.Proof.KernelHost
import proofs.«156157_j12146167513369_1_alg».proof.Proof.KernelLayer1
import proofs.«156157_j12146167513369_1_alg».proof.Proof.KernelLayer2
import Idealize.ShloMosaic.Lib.Pipeline.Value

set_option maxRecDepth 16384

noncomputable section

namespace Cert.KernelIdeal.Result

open Cert.KernelIdeal Cert.KernelIdeal.Gen Cert.KernelIdeal.Host Idealize.ShloMosaic Idealize.ShloMosaic.TcCoe Idealize.SL.Sem
open Idealize.ShloMosaic.ValueIdx Cert.Sage

/-- A vector reshaped to a one-row matrix, read back at row `0`, is the vector. -/
theorem row_of_reshape {n : Nat} (b : (⟨1, ![n]⟩ : Shape).Idx → EReal)
    (h : (⟨1, ![n]⟩ : Shape).ShapeCasts ⟨2, ![1, n]⟩) :
    (fun i : (⟨1, ![n]⟩ : Shape).Idx => shapeCast ⟨2, ![1, n]⟩ b h (ix2 0 (i 0))) = b := by
  funext i
  rw [shapeCast_addUnit_apply ![n] b h (ix2 0 (i 0))]
  congr 1
  funext a
  match a with
  | ⟨0, _⟩ => rfl

/-- The first layer's result as a function of the arguments: the first dense layer of the neighbour mean of the
    features, the features, the two transposed weight matrices and the bias. -/
def hidden (x0 : CF S100000x128) (x1 : CI S2x1600000) (x2 : CF S128x128) (x3 : CF S128) (x4 : CF S128x128) : Arr2 100000 128 :=
  dense1 (mean x0 (srcRaw x1) (dstRaw x1) (recip (dstRaw x1))) x0
    (transpose S128x128 [1, 0] x2 transposes_S128x128_S128x128_1_0) (transpose S128x128 [1, 0] x4 transposes_S128x128_S128x128_1_0) x3

/-- The program's result as a function of the arguments: the second dense layer and the final linear map of the
    neighbour mean of the first layer's result, that result, and the transposed weights and biases. -/
def output (x0 : CF S100000x128) (x1 : CI S2x1600000) (x2 : CF S128x128) (x3 : CF S128) (x4 : CF S128x128)
    (x5 : CF S4x128) (x6 : CF S4) (x7 : CF S4x128) (x8 : CF S2x4) (x9 : CF S2) : Arr2 100000 2 :=
  dense2 (mean (hidden x0 x1 x2 x3 x4) (srcRaw x1) (dstRaw x1) (recip (dstRaw x1))) (hidden x0 x1 x2 x3 x4)
    (transpose S128x4 [1, 0] x5 transposes_S4x128_S128x4_1_0) (transpose S128x4 [1, 0] x7 transposes_S4x128_S128x4_1_0) x6
    (transpose S4x2 [1, 0] x8 transposes_S2x4_S4x2_1_0) x9

variable (m : (ℓ : Loc nD τ sig) → Buf (Elt Ideal) ℓ) (ρ : Dev nD → PrngReg)

/-- THE FIRST REGION'S RESULT ARRAY, at the boundary after it, is `hidden` of the arguments. -/
theorem first_result (c : Dev nD) :
    W2 m ρ c (Proc.devRef .tc main_v28) = hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [W2_v28, Layer1.final (V1 m ρ) c]
  show dense1 (W1 m ρ c (Proc.devRef .tc main_v24)) (W1 m ρ c (Proc.devRef .tc main_arg0)) (W1 m ρ c (Proc.devRef .tc main_v25))
    (W1 m ρ c (Proc.devRef .tc main_v26)) (fun i => W1 m ρ c (Proc.devRef .tc main_v27) (ix2 0 (i 0))) = _
  rw [W1_v24, W1_arg0, W1_v25, W1_v26, W1_v27, row_of_reshape]
  rfl

/-- THE PROGRAM'S RESULT ARRAY, at the last boundary, is `output` of the arguments. -/
theorem result_eq (c : Dev nD) :
    W4 m ρ c (Proc.devRef .tc main_v46)
      = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W4 m ρ c (Proc.devRef .tc main_v46) = (dat1 (V3 m ρ) c).arrAt 7 cfg1.N from W4_arr m ρ c 7,
    Layer2.final (V3 m ρ) c]
  show dense2 (W3 m ρ c (Proc.devRef .tc main_v40)) (W3 m ρ c (Proc.devRef .tc main_v28)) (W3 m ρ c (Proc.devRef .tc main_v41))
    (W3 m ρ c (Proc.devRef .tc main_v42)) (fun i => W3 m ρ c (Proc.devRef .tc main_v44) (ix2 0 (i 0)))
    (W3 m ρ c (Proc.devRef .tc main_v43)) (fun i => W3 m ρ c (Proc.devRef .tc main_v45) (ix2 0 (i 0))) = _
  rw [W3_v40, W3_v28, W3_v41, W3_v42, W3_v43, W3_v44, W3_v45, row_of_reshape, row_of_reshape]
  rw [first_result, W2_v1, W2_v3, W2_v12, W2_arg5, W2_arg6, W2_arg7, W2_arg8, W2_arg9,
    W1_v1, W1_v3, W1_v12, W1_arg5, W1_arg6, W1_arg7, W1_arg8, W1_arg9]
  rfl

end Cert.KernelIdeal.Result

end
-- ==== Proof.RefLayers.lean ====
/-
  The reference program's two dense layers, read as the specification's functions.

  Layer one. At node `r`, feature `q` the reference forms the product of the neighbour mean with the first
  (transposed) weight matrix, adds the bias, adds the product of the node's own features with the second
  (transposed) weight matrix, and takes the maximum with zero:
      max ((Σ_k a[r,k]·wl[k,q] + b[q]) + Σ_k x[r,k]·wr[k,q], 0).
  The specification adds the bias after both products. The two agree because addition on the extended reals is
  commutative and associative.

  Layer two. At node `r`, output `q` the reference forms, for each of the four classes `j`, the same kind of
  sum (mean times weights, plus bias, plus hidden features times weights), multiplies by the output matrix, sums
  over `j`, and adds the output bias. Again only the place of the inner bias differs from the specification.

  The transposed weight matrices and the two neighbour means are left as they stand: both sides mention the same
  arrays. Each bias is a vector copied along the node axis, so its entry at `(r, q)` is the vector's entry at `q`.
-/
import proofs.«156157_j12146167513369_1_alg».proof.Proof.Gen.ReferenceIdeal.Read
import proofs.«156157_j12146167513369_1_alg».proof.Proof.Spec
import Idealize.ShloMosaic.Lib.ValueIdx
import Idealize.ShloMosaic.PureOps.Ideal.Laws

noncomputable section

open scoped BigOperators

namespace Cert.ReferenceIdeal.Layers

open Cert.ReferenceIdeal Cert.ReferenceIdeal.Gen Cert.ReferenceIdeal.Read Idealize.ShloMosaic Idealize.ShloMosaic.ValueIdx Cert.Sage

/-! ## Where each product reads its operands -/

/-- The first product of layer one reads row `r` of its left operand. -/
theorem lidx23 (r : Fin 100000) (q k : Fin 128) : lidx_main_v23 (ix2 r q) k = ix2 r k := funext fun a => Fin.ext (by match a with | ⟨0, _⟩ => rfl | ⟨1, _⟩ => rfl)
/-- The first product of layer one reads column `q` of its right operand. -/
theorem ridx23 (r : Fin 100000) (q k : Fin 128) : ridx_main_v23 (ix2 r q) k = ix2 k q := funext fun a => Fin.ext (by match a with | ⟨0, _⟩ => rfl | ⟨1, _⟩ => rfl)
/-- The second product of layer one reads row `r` of its left operand. -/
theorem lidx28 (r : Fin 100000) (q k : Fin 128) : lidx_main_v28 (ix2 r q) k = ix2 r k := funext fun a => Fin.ext (by match a with | ⟨0, _⟩ => rfl | ⟨1, _⟩ => rfl)
/-- The second product of layer one reads column `q` of its right operand. -/
theorem ridx28 (r : Fin 100000) (q k : Fin 128) : ridx_main_v28 (ix2 r q) k = ix2 k q := funext fun a => Fin.ext (by match a with | ⟨0, _⟩ => rfl | ⟨1, _⟩ => rfl)
/-- The bias of layer one, copied along the node axis, is read at the feature. -/
theorem bidx25 (r : Fin 100000) (q : Fin 128) : idx_main_v24 (idx_main_v25 (ix2 r q)) = ix1 q := funext fun a => Fin.ext (by match a with | ⟨0, _⟩ => rfl)

/-- The first product of layer two reads row `r` of its left operand. -/
theorem lidx50 (r : Fin 100000) (j : Fin 4) (k : Fin 128) : lidx_main_v50 (ix2 r j) k = ix2 r k := funext fun a => Fin.ext (by match a with | ⟨0, _⟩ => rfl | ⟨1, _⟩ => rfl)
/-- The first product of layer two reads column `j` of its right operand. -/
theorem ridx50 (r : Fin 100000) (j : Fin 4) (k : Fin 128) : ridx_main_v50 (ix2 r j) k = ix2 k j := funext fun a => Fin.ext (by match a with | ⟨0, _⟩ => rfl | ⟨1, _⟩ => rfl)
/-- The second product of layer two reads row `r` of its left operand. -/
theorem lidx55 (r : Fin 100000) (j : Fin 4) (k : Fin 128) : lidx_main_v55 (ix2 r j) k = ix2 r k := funext fun a => Fin.ext (by match a with | ⟨0, _⟩ => rfl | ⟨1, _⟩ => rfl)
/-- The second product of layer two reads column `j` of its right operand. -/
theorem ridx55 (r : Fin 100000) (j : Fin 4) (k : Fin 128) : ridx_main_v55 (ix2 r j) k = ix2 k j := funext fun a => Fin.ext (by match a with | ⟨0, _⟩ => rfl | ⟨1, _⟩ => rfl)
/-- The bias of layer two, copied along the node axis, is read at the class. -/
theorem bidx52 (r : Fin 100000) (j : Fin 4) : idx_main_v51 (idx_main_v52 (ix2 r j)) = ix1 j := funext fun a => Fin.ext (by match a with | ⟨0, _⟩ => rfl)
/-- The output product reads row `r` of its left operand. -/
theorem lidx58 (r : Fin 100000) (q : Fin 2) (j : Fin 4) : lidx_main_v58 (ix2 r q) j = ix2 r j := funext fun a => Fin.ext (by match a with | ⟨0, _⟩ => rfl | ⟨1, _⟩ => rfl)
/-- The output product reads column `q` of its right operand. -/
theorem ridx58 (r : Fin 100000) (q : Fin 2) (j : Fin 4) : ridx_main_v58 (ix2 r q) j = ix2 j q := funext fun a => Fin.ext (by match a with | ⟨0, _⟩ => rfl | ⟨1, _⟩ => rfl)
/-- The output bias, copied along the node axis, is read at the output. -/
theorem bidx60 (r : Fin 100000) (q : Fin 2) : idx_main_v59 (idx_main_v60 (ix2 r q)) = ix1 q := funext fun a => Fin.ext (by match a with | ⟨0, _⟩ => rfl)

/-! ## Layer one -/

/-- The reference's rectified first layer is the specification's first layer of the neighbour mean, the node
    features, the two transposed weight matrices and the bias. -/
theorem layer1_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v30 (F := Ideal) x0 x1 x2 x3 x4
      = dense1 (val_main_v21 (F := Ideal) x0 x1) x0 (val_main_v22 (F := Ideal) x2) (val_main_v27 (F := Ideal) x4) x3 := by
  funext i
  obtain ⟨r, q, rfl⟩ : ∃ (r : Fin 100000) (q : Fin 128), i = ix2 r q := ⟨i 0, i 1, eq_ix2 i⟩
  rw [dense1_apply, val_main_v30_apply, val_main_v29_apply, val_main_v26_apply, val_main_v23_apply,
    val_main_v25_apply, val_main_v24_apply, val_main_v28_apply, val_main_call0_v0_apply, val_main_call0_cst_apply]
  simp only [lidx23, ridx23, lidx28, ridx28, bidx25, Ideal.addf_def, Ideal.maximumf_def, Ideal.ofBits_def,
    Ideal.ofBits_zero_f32]
  unfold dense1At
  -- the bias sits between the two products here, after them in the specification
  rw [add_bias_between]

/-! ## Layer two -/

/-- The reference's second layer before the output map, at node `r` and class `j`, is the specification's: the
    reference adds the bias between the two products, the specification after them. -/
theorem hidden2_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S4x128, .f32⟩ : BufTy).Contents (Elt Ideal)) (x6 : (⟨S4, .f32⟩ : BufTy).Contents (Elt Ideal)) (x7 : (⟨S4x128, .f32⟩ : BufTy).Contents (Elt Ideal)) (r : Fin 100000) (j : Fin 4) :
    val_main_v56 (F := Ideal) x0 x1 x2 x3 x4 x5 x6 x7 (ix2 r j)
      = hidden2At (val_main_v48 (F := Ideal) x0 x1 x2 x3 x4) (val_main_v30 (F := Ideal) x0 x1 x2 x3 x4)
          (val_main_v49 (F := Ideal) x5) (val_main_v54 (F := Ideal) x7) x6 r j := by
  rw [val_main_v56_apply, val_main_v53_apply, val_main_v50_apply, val_main_v52_apply, val_main_v51_apply,
    val_main_v55_apply]
  simp only [lidx50, ridx50, lidx55, ridx55, bidx52, Ideal.addf_def]
  unfold hidden2At
  rw [add_bias_between]

/-- The reference's output is the specification's second layer followed by the output map, of the second neighbour
    mean, the rectified first layer, the transposed weight matrices and the biases. -/
theorem layer2_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S4x128, .f32⟩ : BufTy).Contents (Elt Ideal)) (x6 : (⟨S4, .f32⟩ : BufTy).Contents (Elt Ideal)) (x7 : (⟨S4x128, .f32⟩ : BufTy).Contents (Elt Ideal)) (x8 : (⟨S2x4, .f32⟩ : BufTy).Contents (Elt Ideal)) (x9 : (⟨S2, .f32⟩ : BufTy).Contents (Elt Ideal)) :
    val_main_v61 (F := Ideal) x0 x1 x2 x3 x4 x5 x6 x7 x8 x9
      = dense2 (val_main_v48 (F := Ideal) x0 x1 x2 x3 x4) (val_main_v30 (F := Ideal) x0 x1 x2 x3 x4)
          (val_main_v49 (F := Ideal) x5) (val_main_v54 (F := Ideal) x7) x6 (val_main_v57 (F := Ideal) x8) x9 := by
  funext i
  obtain ⟨r, q, rfl⟩ : ∃ (r : Fin 100000) (q : Fin 2), i = ix2 r q := ⟨i 0, i 1, eq_ix2 i⟩
  rw [dense2_apply, val_main_v61_apply, val_main_v58_apply, val_main_v60_apply, val_main_v59_apply, bidx60 r q,
    Ideal.addf_def]
  unfold dense2At
  refine congrArg (· + x9 (ix1 q)) (Finset.sum_congr rfl fun j _ => ?_)
  rw [lidx58 r q j, ridx58 r q j, hidden2_eq]

end Cert.ReferenceIdeal.Layers

end
-- ==== Proof.LibVecScatter.lean ====
/-
  A scatter-add into a vector, read at an index, and counting into a vector against counting into a one-column table:
  * a scatter-add into a vector `[N]` with scatter indices `[R, 1]` and updates `[R]` adds update `r` at position
    `idx r` of the vector when that position exists (the index taken signed, not clamped) and nowhere otherwise, so
    the entry `a` of the result is the vector's entry plus the sum of the updates `r` over the positions with `idx r = a`;
  * with a constant vector and constant updates this is a count of the positions whose index is `a`, and the same count
    comes out of the scatter-add of a constant one-column table `[N, 1]` with constant updates `[R, 1]` at `(a, 0)`.
-/
import Idealize.ShloMosaic.PureOps.Ideal
import Idealize.ShloMosaic.PureOps.Ideal.Laws
import Idealize.ShloMosaic.Lib.ValueIdx
import proofs.«156157_j12146167513369_1_alg».proof.Proof.LibRowDims

noncomputable section

open scoped BigOperators

namespace Idealize.ShloMosaic.RowDims

open Idealize.ShloMosaic Idealize.ShloMosaic.ValueIdx

/-! ## Sums over a rank-1 index set -/

/-- A rank-1 index set is its one coordinate range … -/
def vecIdxEquiv {n : Nat} : (⟨1, ![n]⟩ : Shape).Idx ≃ Fin n where
  toFun i := i 0
  invFun a := ix1 a
  left_inv i := (eq_ix1 i).symm
  right_inv _ := rfl

/-- … so a sum over it is the sum over the coordinate. -/
theorem sum_vecIdx {M : Type*} [AddCommMonoid M] {n : Nat} (f : (⟨1, ![n]⟩ : Shape).Idx → M) :
    ∑ i, f i = ∑ a : Fin n, f (ix1 a) := by
  rw [← Equiv.sum_comp (vecIdxEquiv (n := n)).symm f]
  rfl

/-! ## A scatter-add into a vector -/

/-- The dimension numbers of `x.at[idx].add(u)` for a vector `[N]`, scatter indices `[R, 1]` and updates `[R]`. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The update `r` reads its one start-index component at `(r, 0)` of the scatter indices. -/
theorem vecScatter_siIdx {N R : Nat}
    (wf : ScatterDims.WF ⟨1, ![N]⟩ ⟨2, ![R, 1]⟩ ⟨1, ![R]⟩ [] [0] [0] 1) (r : Fin R) :
    (vecScatter N R wf).siIdx (ix1 r) ⟨List.idxOf (0 : Fin 1) (vecScatter N R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the vector's one axis the window starts at the scatter index of the update, read signed. -/
theorem vecScatter_start {N R w : Nat}
    (wf : ScatterDims.WF ⟨1, ![N]⟩ ⟨2, ![R, 1]⟩ ⟨1, ![R]⟩ [] [0] [0] 1)
    (idx : IVec ⟨2, ![R, 1]⟩ w) (r : Fin R) :
    (vecScatter N R wf).start (ix1 r) idx 0 = (idx (ix2 r 0)).toInt := by
  unfold ScatterDims.start
  rw [dif_pos (show (0 : Fin 1) ∈ (vecScatter N R wf).scatterDimsToOperandDims from List.mem_singleton.mpr rfl),
    vecScatter_siIdx wf r]

/-- The vector's one axis is an inserted axis (the updates have no window axis): its window coordinate is `0`. -/
theorem vecScatter_window {N R : Nat}
    (wf : ScatterDims.WF ⟨1, ![N]⟩ ⟨2, ![R, 1]⟩ ⟨1, ![R]⟩ [] [0] [0] 1) (r : Fin R) :
    (vecScatter N R wf).window (ix1 r) 0 = 0 := rfl

/-- Update `r` lands on the vector's entry `a` exactly when its start index, read signed, is `a`. -/
theorem vecScatter_resultIdx?_eq_some_iff {N R w : Nat}
    (wf : ScatterDims.WF ⟨1, ![N]⟩ ⟨2, ![R, 1]⟩ ⟨1, ![R]⟩ [] [0] [0] 1)
    (idx : IVec ⟨2, ![R, 1]⟩ w) (r : Fin R) (a : Fin N) :
    (vecScatter N R wf).resultIdx? (ix1 r) idx = some (ix1 a) ↔ (idx (ix2 r 0)).toInt = (a.val : Int) := by
  have hs0 := vecScatter_start wf idx r
  have hw0 := vecScatter_window wf r
  unfold ScatterDims.resultIdx?
  constructor
  · -- landed at a: the window is inside the vector, and its one coordinate is a
    intro h
    split at h
    · rename_i hin
      have hf := Option.some.inj h
      have e0 := congrArg (fun f => (f 0).val) hf
      simp only [hs0, hw0] at e0
      have h0 := hin 0
      rw [hs0, hw0] at h0
      have ea : ((ix1 a : (⟨1, ![N]⟩ : Shape).Idx) 0).val = a.val := rfl
      rw [ea] at e0
      omega
    · exact absurd h (by simp)
  · -- the start index is a position of the vector: the window is inside, at a
    intro hv
    have hin : ∀ a' : Fin 1, 0 ≤ (vecScatter N R wf).start (ix1 r) idx a' + (vecScatter N R wf).window (ix1 r) a'
        ∧ (vecScatter N R wf).start (ix1 r) idx a' + (vecScatter N R wf).window (ix1 r) a' < (⟨1, ![N]⟩ : Shape).size a' := by
      intro a'
      match a' with
      | ⟨0, _⟩ =>
        show 0 ≤ (vecScatter N R wf).start (ix1 r) idx 0 + (vecScatter N R wf).window (ix1 r) 0
          ∧ (vecScatter N R wf).start (ix1 r) idx 0 + (vecScatter N R wf).window (ix1 r) 0 < (N : Int)
        rw [hs0, hw0, hv]; have := a.isLt; constructor <;> omega
    rw [dif_pos hin]
    congr 1
    funext a'
    refine Fin.ext ?_
    match a' with
    | ⟨0, _⟩ =>
      show ((vecScatter N R wf).start (ix1 r) idx 0 + (vecScatter N R wf).window (ix1 r) 0).toNat = a.val
      rw [hs0, hw0, hv]; omega

/-- The accumulated vector at `a`: the vector's entry plus the updates' entries over the positions whose index is `a`. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (a : Fin N) :
    Ideal.hostScatterAdd (vecScatter N R wf) x idx upd (ix1 a)
      = x (ix1 a) + ∑ r : Fin R, if (idx (ix2 r 0)).toInt = (a.val : Int) then upd (ix1 r) else 0 := by
  unfold Ideal.hostScatterAdd
  congr 1
  -- the sum over the updates that land on a, as a sum over all updates of the ones that do
  rw [Finset.sum_filter, sum_vecIdx]
  refine Finset.sum_congr rfl fun r _ => ?_
  -- update r contributes its entry when its start index is a, and nothing otherwise
  simp only [vecScatter_resultIdx?_eq_some_iff]

/-! ## Counting into a vector and into a one-column table -/

/-- Counting into a vector and counting into a one-column table agree, entry by entry. -/
theorem count_vec_eq_count_col {N R w : Nat} (wfV : ScatterDims.WF ⟨1, ![N]⟩ ⟨2, ![R, 1]⟩ ⟨1, ![R]⟩ [] [0] [0] 1)
    (wfC : ScatterDims.WF ⟨2, ![N, 1]⟩ ⟨2, ![R, 1]⟩ ⟨2, ![R, 1]⟩ [1] [0] [0] 1)
    (idx : IVec ⟨2, ![R, 1]⟩ w) (z u : EReal) (a : Fin N) :
    Ideal.hostScatterAdd (vecScatter N R wfV) (fun _ => z) idx (fun _ => u) (ix1 a)
      = Ideal.hostScatterAdd (rowScatter N 1 R wfC) (fun _ => z) idx (fun _ => u) (ix2 a 0) := by
  -- both sides are z plus u over the positions whose index is a
  exact (vecScatterAdd_apply wfV (fun _ => z) idx (fun _ => u) a).trans
    (rowScatterAdd_apply wfC (fun _ => z) idx (fun _ => u) a 0).symm

end Idealize.ShloMosaic.RowDims

end
-- ==== Proof.MeanBridge.lean ====
/-
  The reference's neighbour mean is the kernel program's neighbour mean, as whole arrays.

  At entry `(r, k)` the reference has `agg (r, k) / max (count (r, 0), 1)`, where `agg` sums over node `r`'s incoming edges
  the source node's row and `count` adds ones at the destinations into a one-column table of zeros. The kernel program
  has `agg (r, k) · (1 / max (count r, 1))`: the same aggregate, and the reciprocal taken first on a VECTOR of counts,
  viewed as a column and repeated along the row. The two counts agree entry by entry (counting into a vector and
  into a one-column table), a maximum with `1` is never `0`, and the quotient by a nonzero extended real is the
  product with the reciprocal.
-/
import proofs.«156157_j12146167513369_1_alg».proof.Proof.KernelHost
import proofs.«156157_j12146167513369_1_alg».proof.Proof.Gen.ReferenceIdeal.Read
import proofs.«156157_j12146167513369_1_alg».proof.Proof.LibVecScatter
import proofs.«156157_j12146167513369_1_alg».proof.Proof.LibRowDims
import proofs.«156157_j12146167513369_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.MeanBridge

open Idealize.ShloMosaic Idealize.ShloMosaic.ValueIdx Idealize.ShloMosaic.RowDims
open Cert.KernelIdeal Cert.KernelIdeal.Gen Cert.KernelIdeal.Host

/-- The reference's aggregate of a feature array `h`: over each node's incoming edges, the sum of the source node's
    row of `h`, added into zeros. -/
def refAggregate (h : CF S100000x128) (x1 : CI S2x1600000) : CF S100000x128 :=
  Host.scatterAdd Cert.ReferenceIdeal.scatter_S100000x128_S1600000x1_S1600000x128_1_0_0_1
    (Cert.ReferenceIdeal.Read.val_main_v11 (F := Ideal)) (Cert.ReferenceIdeal.Read.val_main_v12 (F := Ideal) x1)
    (Host.gather Cert.ReferenceIdeal.gather_S100000x128_S1600000x1_S1600000x128_1_0_n_n_0_1_1128 h
      (Cert.ReferenceIdeal.Read.val_main_v9 (F := Ideal) x1))

/-- The reference's neighbour mean of a feature array `h`: the aggregate over `max (count, 1)`, the count column
    repeated along the row. -/
def refMean (h : CF S100000x128) (x1 : CI S2x1600000) : CF S100000x128 :=
  Host.divf (refAggregate h x1) (Cert.ReferenceIdeal.Read.val_main_v20 (F := Ideal) x1)

/-! ## The aggregate -/

/-- The two programs' aggregates are the same array: the same gather and scatter-add of the same index columns. -/
theorem refAggregate_eq (h : CF S100000x128) (x1 : CI S2x1600000) :
    refAggregate h x1 = aggregate h (srcRaw x1) (dstRaw x1) := rfl

/-! ## The two counts -/

/-- The kernel program's count record is the vector scatter-add's. -/
theorem scatterVec_eq : Cert.KernelIdeal.scatter_S100000_S1600000x1_S1600000_n_0_0_1
    = vecScatter 100000 1600000 (Cert.KernelIdeal.scatter_S100000_S1600000x1_S1600000_n_0_0_1).wf := rfl

/-- The reference's count record is the row scatter-add's, into a table of one column. -/
theorem scatterCol_eq : Cert.ReferenceIdeal.scatter_S100000x1_S1600000x1_S1600000x1_1_0_0_1
    = rowScatter 100000 1 1600000 (Cert.ReferenceIdeal.scatter_S100000x1_S1600000x1_S1600000x1_1_0_0_1).wf := rfl

/-- The vector of zeros the kernel program counts into is constant. -/
theorem zerosVec_eq : broadcastInDim S100000 ![] bcast_S_S100000 (constant (F := Ideal) S_ .f32 0x00000000#32)
    = fun _ => Ideal.ofBits .f32 0x00000000#32 := rfl

/-- The vector of ones the kernel program adds is constant. -/
theorem onesVec_eq : broadcastInDim S1600000 ![] bcast_S_S1600000 (constant (F := Ideal) S_ .f32 0x3F800000#32)
    = fun _ => Ideal.ofBits .f32 0x3F800000#32 := rfl

/-- The column of zeros the reference counts into is constant. -/
theorem zerosCol_eq : Cert.ReferenceIdeal.Read.val_main_v15 (F := Ideal) = fun _ => Ideal.ofBits .f32 0x00000000#32 := rfl

/-- The column of ones the reference adds is constant. -/
theorem onesCol_eq : Cert.ReferenceIdeal.Read.val_main_v14 (F := Ideal) = fun _ => Ideal.ofBits .f32 0x3F800000#32 := rfl

/-- The reference's destination column is the kernel program's. -/
theorem dstCol_eq (x1 : CI S2x1600000) : Cert.ReferenceIdeal.Read.val_main_v16 (F := Ideal) x1 = dstIdx (dstRaw x1) := rfl

/-- The kernel program's count vector, as the exact scatter-add. -/
theorem degree_unfold (d : CI S1600000) :
    degree d = Ideal.hostScatterAdd Cert.KernelIdeal.scatter_S100000_S1600000x1_S1600000_n_0_0_1
      (broadcastInDim S100000 ![] bcast_S_S100000 (constant (F := Ideal) S_ .f32 0x00000000#32)) (dstIdx d)
      (broadcastInDim S1600000 ![] bcast_S_S1600000 (constant (F := Ideal) S_ .f32 0x3F800000#32)) := rfl

/-- The reference's count column, as the exact scatter-add. -/
theorem refCount_unfold (x1 : CI S2x1600000) :
    Cert.ReferenceIdeal.Read.val_main_v17 (F := Ideal) x1
      = Ideal.hostScatterAdd Cert.ReferenceIdeal.scatter_S100000x1_S1600000x1_S1600000x1_1_0_0_1
        (Cert.ReferenceIdeal.Read.val_main_v15 (F := Ideal)) (Cert.ReferenceIdeal.Read.val_main_v16 (F := Ideal) x1)
        (Cert.ReferenceIdeal.Read.val_main_v14 (F := Ideal)) := rfl

/-- The reference's count column at `(r, 0)` is the kernel program's count vector at `r`. -/
theorem refCount_eq (x1 : CI S2x1600000) (r : Fin 100000) :
    Cert.ReferenceIdeal.Read.val_main_v17 (F := Ideal) x1 (ix2 r 0) = degree (dstRaw x1) (ix1 r) := by
  -- both are constant ones added at the same destinations into constant zeros
  rw [refCount_unfold, degree_unfold, scatterCol_eq, scatterVec_eq, zerosCol_eq, onesCol_eq, dstCol_eq, zerosVec_eq, onesVec_eq]
  -- counting into a one-column table and into a vector agree
  exact (count_vec_eq_count_col _ _ (dstIdx (dstRaw x1)) (Ideal.ofBits .f32 0x00000000#32) (Ideal.ofBits .f32 0x3F800000#32) r).symm

/-! ## The two denominators at an entry -/

/-- The reference's repeated count column is read at `(r, 0)`. -/
theorem refDenominator_idx (r : Fin 100000) (k : Fin 128) : Cert.ReferenceIdeal.Read.idx_main_v20 (ix2 r k) = ix2 r 0 := by
  funext a
  match a with
  | ⟨0, _⟩ => rfl
  | ⟨1, _⟩ => rfl

/-- The reference's column of ones reads `1` everywhere. -/
theorem refOnes_apply (j : Cert.ReferenceIdeal.S100000x1.Idx) : Cert.ReferenceIdeal.Read.val_main_v18 (F := Ideal) j = 1 := by
  rw [Cert.ReferenceIdeal.Read.val_main_v18_apply, Cert.ReferenceIdeal.Read.val_main_cst_3_apply, Ideal.ofBits_def,
    Ideal.ofBits_one_f32]

/-- The reference's denominator at `(r, k)`: `max (count (r, 0), 1)`. -/
theorem refDenominator_apply (x1 : CI S2x1600000) (r : Fin 100000) (k : Fin 128) :
    Cert.ReferenceIdeal.Read.val_main_v20 (F := Ideal) x1 (ix2 r k)
      = max (Cert.ReferenceIdeal.Read.val_main_v17 (F := Ideal) x1 (ix2 r 0)) 1 := by
  -- the repeated column at (r, 0) is the maximum of the count and the column of ones there
  rw [Cert.ReferenceIdeal.Read.val_main_v20_apply, refDenominator_idx, Cert.ReferenceIdeal.Read.val_main_v19_apply,
    Ideal.maximumf_def, refOnes_apply]

/-- The kernel program's vector of ones reads `1` everywhere. -/
theorem onesVec_apply (j : S100000.Idx) :
    broadcastInDim S100000 ![] bcast_S_S100000 (constant (F := Ideal) S_ .f32 0x3F800000#32) j = 1 :=
  Ideal.ofBits_one_f32

/-- The kernel program's reciprocal column, repeated along the row, at `(r, k)`: `1 / max (count r, 1)`. -/
theorem recip_apply (d : CI S1600000) (r : Fin 100000) (k : Fin 128) :
    broadcastInDim S100000x128 ![0, 1] bcast_S100000x1_S100000x128_0_1 (recip d) (ix2 r k)
      = Ideal.div 1 (max (degree d (ix1 r)) 1) := by
  -- the repeated column is read at (r, 0)
  refine (broadcastInDim_apply _ bcast_S100000x1_S100000x128_0_1 (recip d) (ix2 r k) (ix2 r 0) (fun a => match a with
    | ⟨0, _⟩ => by show r.val = if (100000 : Nat) = 1 then 0 else r.val; rw [if_neg (by decide)]
    | ⟨1, _⟩ => by show 0 = if (1 : Nat) = 1 then 0 else k.val; rw [if_pos rfl])).trans ?_
  unfold recip
  -- the column at (r, 0) is the vector at r: the same row-major position
  refine (shapeCast_apply _ shapeCasts_S100000_S100000x1 (ix2 r 0) (ix1 r) ?_).trans ?_
  · rw [Shape.rowMajor_val_one, Shape.rowMajor_val_two]
    show r.val = r.val * 1 + 0
    omega
  -- there it is 1 over the maximum of the count and 1
  · rw [hostDivf_apply, maximumf_apply, onesVec_apply]

/-! ## The two means -/

/-- The reference's neighbour mean of any feature array is the kernel program's. -/
theorem refMean_eq (h : CF S100000x128) (x1 : CI S2x1600000) :
    refMean h x1 = mean h (srcRaw x1) (dstRaw x1) (recip (dstRaw x1)) := by
  funext i
  obtain ⟨r, k, rfl⟩ : ∃ (r : Fin 100000) (k : Fin 128), i = ix2 r k := ⟨i 0, i 1, eq_ix2 i⟩
  -- the quotient on one side, the product on the other
  unfold refMean mean
  rw [hostDivf_apply, mulf_apply]
  -- the same aggregate, the same count, and a maximum with 1 is not 0
  rw [refAggregate_eq, refDenominator_apply, recip_apply, refCount_eq]
  exact (Cert.Sage.mul_one_div _ _ (Cert.Sage.max_one_ne_zero _)).symm

/-- The first layer: the reference's mean of the input features is the kernel program's. -/
theorem mean1_eq (x0 : CF S100000x128) (x1 : CI S2x1600000) :
    Cert.ReferenceIdeal.Read.val_main_v21 (F := Ideal) x0 x1 = mean x0 (srcRaw x1) (dstRaw x1) (recip (dstRaw x1)) :=
  refMean_eq x0 x1

/-- The second layer: the reference's mean of the first layer's result is the kernel program's mean of that array (the
    second layer's index columns are the first layer's, printed again). -/
theorem mean2_eq (x0 : CF S100000x128) (x1 : CI S2x1600000) (x2 : CF S128x128) (x3 : CF S128) (x4 : CF S128x128) :
    Cert.ReferenceIdeal.Read.val_main_v48 (F := Ideal) x0 x1 x2 x3 x4
      = mean (Cert.ReferenceIdeal.Read.val_main_v30 (F := Ideal) x0 x1 x2 x3 x4) (srcRaw x1) (dstRaw x1) (recip (dstRaw x1)) :=
  refMean_eq (Cert.ReferenceIdeal.Read.val_main_v30 (F := Ideal) x0 x1 x2 x3 x4) x1

end Cert.MeanBridge

end
-- ==== Proof.RefOutput.lean ====
/-
  The reference's result is the kernel program's result, as functions of the arguments.

  The reference's last operation is the second dense layer and final linear map of ITS neighbour mean of its first
  layer's result, and that first layer is the first dense layer of its neighbour mean of the features. Its neighbour
  means are the kernel program's (dividing by `max (count, 1)` is multiplying by its reciprocal, and the two ways of
  counting agree), and the transposed weights are the same arrays, so the two results are one function.
-/
import proofs.«156157_j12146167513369_1_alg».proof.Proof.KernelValue
import proofs.«156157_j12146167513369_1_alg».proof.Proof.RefLayers
import proofs.«156157_j12146167513369_1_alg».proof.Proof.MeanBridge

noncomputable section

namespace Cert.Bridge

open Idealize.ShloMosaic Cert.KernelIdeal Cert.KernelIdeal.Host

/-- The reference run's result term is `output` of the arguments. -/
theorem ref_output_eq (x0 : CF S100000x128) (x1 : CI S2x1600000) (x2 : CF S128x128) (x3 : CF S128) (x4 : CF S128x128)
    (x5 : CF S4x128) (x6 : CF S4) (x7 : CF S4x128) (x8 : CF S2x4) (x9 : CF S2) :
    Cert.ReferenceIdeal.Read.val_main_v61 (F := Ideal) x0 x1 x2 x3 x4 x5 x6 x7 x8 x9 = Cert.KernelIdeal.Result.output x0 x1 x2 x3 x4 x5 x6 x7 x8 x9 := by
  rw [Cert.ReferenceIdeal.Layers.layer2_eq, Cert.MeanBridge.mean2_eq, Cert.ReferenceIdeal.Layers.layer1_eq,
    Cert.MeanBridge.mean1_eq]
  rfl

end Cert.Bridge

end
-- ==== Proof.lean ====
/-
  The proof of `Cert.Claim` for a two-layer mean-aggregation graph network (two dense kernel regions with the gather
  and scatter-add on the host between them) against its plain reference.

  * The three frames: the two kernel programs' are the generated frame certificates (both regions are of the class whose
    frame is proved whole); the reference's is its generated run with the result dropped.
  * `preserves`: the idealization rewrote nothing, so there is nothing to state.
  * `algebraic`: at the ideal values both programs end with the result array at ONE function of the arguments
    (`Cert.KernelIdeal.Result.output`): the second dense layer and final linear map of the neighbour mean of the first
    layer's result. The kernel program's side is read off its run — the regions' blocks tile the arrays, a matrix
    product into a zero accumulator is the plain sum, a change of float format is the identity —, the reference's
    off its generated run one operation at a time. What joins them: the kernel program multiplies the aggregate by
    `1 / max (count, 1)` where the reference divides by `max (count, 1)`, the same on the extended reals since the
    divisor is never zero; it counts into a vector where the reference counts into a one-column table, the same
    counts; and it adds the bias after both products where the reference adds it between them, the same sum. No step
    needs the inputs to be finite, so the precondition is never opened.
-/
import proofs.«156157_j12146167513369_1_alg».proof.Defs
import proofs.«156157_j12146167513369_1_alg».proof.Proof.Gen.Kernel
import proofs.«156157_j12146167513369_1_alg».proof.Proof.Gen.Kernel.Skeleton
import proofs.«156157_j12146167513369_1_alg».proof.Proof.Gen.Kernel.Launch
import proofs.«156157_j12146167513369_1_alg».proof.Proof.Gen.Kernel.Points
import proofs.«156157_j12146167513369_1_alg».proof.Proof.Gen.Kernel.Frame
import proofs.«156157_j12146167513369_1_alg».proof.Proof.Gen.KernelIdeal
import proofs.«156157_j12146167513369_1_alg».proof.Proof.Gen.KernelIdeal.Skeleton
import proofs.«156157_j12146167513369_1_alg».proof.Proof.Gen.KernelIdeal.Launch
import proofs.«156157_j12146167513369_1_alg».proof.Proof.Gen.KernelIdeal.Points
import proofs.«156157_j12146167513369_1_alg».proof.Proof.Gen.KernelIdeal.Frame
import proofs.«156157_j12146167513369_1_alg».proof.Proof.Gen.ReferenceIdeal
import proofs.«156157_j12146167513369_1_alg».proof.Proof.Gen.Pre_finite_inputs
import proofs.«156157_j12146167513369_1_alg».proof.Proof.Gen.ReferenceIdeal.Run
import proofs.«156157_j12146167513369_1_alg».proof.Proof.Gen.ReferenceIdeal.Read
import proofs.«156157_j12146167513369_1_alg».proof.Proof.KernelRun
import proofs.«156157_j12146167513369_1_alg».proof.Proof.KernelValue
import proofs.«156157_j12146167513369_1_alg».proof.Proof.RefOutput
import Idealize.ShloMosaic.Adequacy
import Idealize.ShloMosaic.Init

noncomputable section

namespace Cert.Proof

open Idealize.ShloMosaic Idealize.SL.Sem

/-- The word-level kernel program runs and keeps its arguments: the generated frame certificate. -/
theorem frame_k : Cert.frame_Kernel := fun m ρ _ => Cert.Kernel.Gen.frame m ρ

/-- The idealized kernel program runs and keeps its arguments: the generated frame certificate. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `output` of the arguments, which agree. -/
theorem algebraic : Cert.algebraic_KernelIdeal_ReferenceIdeal := by
  intro m ρ m' ρ' _ hagree
  refine ⟨fun c => Cert.KernelIdeal.Result.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · -- the kernel program's run, its result named, and that result as a function of the arguments
    exact (θ_run Cert.KernelIdeal.defs _ _).mono
      (fun r h c => ⟨(h c).1.trans (Cert.KernelIdeal.Result.result_eq m ρ c), (h c).2⟩)
      (Cert.KernelIdeal.Named.run_named m ρ)
  · -- the reference's run, its result term read as the same function of its own arguments, which are the kernel's
    refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v61_eq, Cert.Bridge.ref_output_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
